-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1200000 32) (main_arg2 : FVec F S64x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x64 : Shape := ⟨2, ![1, 64]⟩
abbrev S10000x64 : Shape := ⟨2, ![10000, 64]⟩

abbrev nBuf : Space → Nat
  | .hbm => 62
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000, .f32⟩
  | .hbm, ⟨43, _⟩ => ⟨S1200000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S1200000x1, .f32⟩
  | .hbm, ⟨54, _⟩ => ⟨S1200000x64, .f32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S1x64, .f32⟩
  | .hbm, ⟨61, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v43) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S1x1200000, .i32⟩
  | .hbm, ⟨5, _⟩ => ⟨S1200000, .i32⟩
  | .hbm, ⟨6, _⟩ => ⟨S1x1200000, .i32⟩
  | .hbm, ⟨7, _⟩ => ⟨S1200000, .i32⟩
  | .hbm, ⟨8, _⟩ => ⟨S_, .f32⟩
  | .hbm, ⟨9, _⟩ => ⟨S1200000, .f32⟩
  | .hbm, ⟨10, _⟩ => ⟨S_, .f32⟩
  | .hbm, ⟨11, _⟩ => ⟨S100000, .f32⟩
  | .hbm, ⟨12, _⟩ => ⟨S1200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1200000, .i32⟩
  | .hbm, ⟨26, _⟩ => ⟨S1200000, .i1⟩
  | .hbm, ⟨27, _⟩ => ⟨S_, .i32⟩
  | .hbm, ⟨28, _⟩ => ⟨S1200000, .i32⟩
  | .hbm, ⟨29, _⟩ => ⟨S1200000, .i32⟩
  | .hbm, ⟨30, _⟩ => ⟨S1200000, .i32⟩
  | .hbm, ⟨31, _⟩ => ⟨S1200000x1, .i32⟩
  | .hbm, ⟨32, _⟩ => ⟨S1200000, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000, .f32⟩
  | .hbm, ⟨43, _⟩ => ⟨S1200000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000x64, .f32⟩
  | .hbm, ⟨53, _⟩ => ⟨S1200000x1, .f32⟩
  | .hbm, ⟨54, _⟩ => ⟨S1200000x64, .f32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S100000x64, .f32⟩
  | .hbm, ⟨61, _⟩ => ⟨S1x64, .f32⟩
  | .hbm, ⟨62, _⟩ => ⟨S100000x64, .f32⟩
  | .hbm, ⟨63, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Spec.lean ====
/-
  The dense layer as one function of whole arrays, over the extended reals.

  For a features matrix a (100000 × 64), a weight matrix w (64 × 64) and a bias vector b (64), the layer's output
  at (p, q) is   Σ_k a(p, k) · w(k, q)  +  b(q),   a finite sum over the 64 contracted columns plus one bias entry.
  Nothing here depends on how the rows are tiled: a block of 10000 consecutive rows of the output depends on the same
  rows of a only, which is what lets a row-tiled product agree with the whole one.
-/
import Idealize.ShloMosaic.PureOps.Ideal.Laws
import Idealize.ShloMosaic.Lib.ValueIdx

noncomputable section

namespace Cert.Dense

open Idealize.ShloMosaic Idealize.ShloMosaic.ValueIdx

/-- The layer: at (p, q) the row p of `a` against the column q of `w`, plus `b q`. -/
def lin (a : (⟨2, ![100000, 64]⟩ : Shape).Idx → EReal) (w : (⟨2, ![64, 64]⟩ : Shape).Idx → EReal)
    (b : (⟨1, ![64]⟩ : Shape).Idx → EReal) : (⟨2, ![100000, 64]⟩ : Shape).Idx → EReal :=
  fun j => (∑ k : Fin 64, a (ix2 (j 0) k) * w (ix2 k (j 1))) + b (ix1 (j 1))

theorem lin_apply (a : (⟨2, ![100000, 64]⟩ : Shape).Idx → EReal) (w : (⟨2, ![64, 64]⟩ : Shape).Idx → EReal)
    (b : (⟨1, ![64]⟩ : Shape).Idx → EReal) (p : Fin 100000) (q : Fin 64) :
    lin a w b (ix2 p q) = (∑ k : Fin 64, a (ix2 p k) * w (ix2 k q)) + b (ix1 q) := rfl

end Cert.Dense

end
-- ==== Proof.KernelBlock.lean ====
/-
  One grid point's block of the dense layer, read at an index.

  The body loads a 10000 × 64 block x of the aggregated features, the 64 × 64 weights w and the 1 × 64 bias row b,
  narrows x and w to bf16 (the identity on extended reals), multiplies them into a zero accumulator and adds the bias row
  broadcast down the rows. So its result at (p, q) is  Σ_k x(p, k) · w(k, q) + b(0, q).
-/
import proofs.«108207_j67808943669323_1_alg».proof.Proof.Gen.KernelIdeal.Skeleton
import proofs.«108207_j67808943669323_1_alg».proof.Proof.LibPlainDot
import proofs.«108207_j67808943669323_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The body's product has the plain dimension numbers: rows × contraction times contraction × columns. -/
theorem dot_plain : dot_S10000x64_S64x64_S10000x64_1_0_0_1_n_n = DotDims.plain 10000 64 64 := rfl

/-- The bias row broadcast down the 10000 rows reads, at (p, q), the row's entry q. -/
theorem bias_apply (x2 : Vec Ideal S1x64 .f32) (p : Fin 10000) (q : Fin 64) :
    broadcastTo S10000x64 (shapeCast S1x64 x2 shapeCasts_S1x64_S1x64) broadcasts_S1x64_S10000x64 (ix2 p q)
      = x2 (ix2 (0 : Fin 1) q) := by
  rw [shapeCast_self]
  exact broadcastTo_apply x2 broadcasts_S1x64_S10000x64 (ix2 p q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- The body's stored value at (p, q): row p of the block against column q of the weights, plus the bias entry q. -/
theorem pay_apply (x0 : Vec Ideal S10000x64 .f32) (x1 : Vec Ideal S64x64 .f32) (x2 : Vec Ideal S1x64 .f32)
    (p : Fin 10000) (q : Fin 64) :
    k0_pay1 (F := Ideal) x0 x1 x2 (ix2 p q)
      = (∑ k : Fin 64, x0 (ix2 p k) * x1 (ix2 k q)) + x2 (ix2 (0 : Fin 1) q) := by
  unfold k0_pay1
  rw [addf_apply, bias_apply, shapeCast_self, dot_plain]
  simp only [matmul]
  rw [Cert.LibPlainDot.matmul_plain_zero]
  rfl

/-- A block whose row p is row r of a features array A, beside the whole weights W and a bias row holding the vector b,
    gives at (p, q) the layer of the whole arrays at (r, q): the layer's row r reads row r of A only. -/
theorem block_lin (A : S100000x64.Idx → EReal) (W : S64x64.Idx → EReal) (b : S64.Idx → EReal)
    (x0 : Vec Ideal S10000x64 .f32) (x1 : Vec Ideal S64x64 .f32) (x2 : Vec Ideal S1x64 .f32)
    (r : Fin 100000) (p : Fin 10000) (q : Fin 64)
    (h0 : ∀ k : Fin 64, x0 (ix2 p k) = A (ix2 r k)) (h1 : ∀ k : Fin 64, x1 (ix2 k q) = W (ix2 k q))
    (h2 : x2 (ix2 (0 : Fin 1) q) = b (ix1 q)) :
    k0_pay1 (F := Ideal) x0 x1 x2 (ix2 p q) = Cert.Dense.lin A W b (ix2 r q) := by
  rw [pay_apply, Cert.Dense.lin_apply, h2]
  exact congrArg (· + b (ix1 q)) (Finset.sum_congr rfl fun k _ => by rw [h0 k, h1 k])

end Cert.KernelIdeal.Block

end
-- ==== Proof.KernelWhole.lean ====
/-
  The row-tiled kernel computes the dense layer of the whole array.

  The grid has 10 points; point t stages rows 10000·t … 10000·t + 9999 of the aggregated features, all of the weights
  and the one-row bias, and writes back the same rows of the output. A block's row p is the array's row 10000·t + p, and a
  layer's output row depends on that row of the features only, so what point t writes back is block t of the layer of
  the whole arrays. The ten blocks tile the 100000 rows, so the output array ends holding the layer everywhere.
-/
import proofs.«108207_j67808943669323_1_alg».proof.Proof.Gen.KernelIdeal.Value
import proofs.«108207_j67808943669323_1_alg».proof.Proof.KernelBlock
import proofs.«108207_j67808943669323_1_alg».proof.Proof.Spec
import Idealize.ShloMosaic.Lib.StableHlo.Run
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The aggregated features, as the region finds them. -/
abbrev agg (c : Dev nD) : S100000x64.Idx → EReal := V m c main_v43
/-- The weights … -/
abbrev wts (c : Dev nD) : S64x64.Idx → EReal := m ((c : Thread nD τ).loc main_arg2)
/-- … and the bias vector, as launched. -/
abbrev bias (c : Dev nD) : S64.Idx → EReal := m ((c : Thread nD τ).loc main_arg3)

/-- The weights as the region finds them: no host operation writes them. -/
abbrev wtsV (c : Dev nD) : S64x64.Idx → EReal := V m c main_arg2
theorem wtsV_eq (c : Dev nD) : wtsV m c = wts m c := V_main_arg2 m c
/-- The one-row bias array the region finds. -/
abbrev browV (c : Dev nD) : S1x64.Idx → EReal := V m c main_v44

/-- The bias row the region finds is the bias vector recast as one row. -/
theorem brow_eq (c : Dev nD) :
    browV m c = shapeCast S1x64 (bias m c) shapeCasts_S64_S1x64 := by
  dsimp only [browV, V, hostOps0]
  after_results_simp
  rfl

/-- So its entry (0, q) is the vector's entry q. -/
theorem brow_apply (c : Dev nD) (q : Fin 64) :
    browV m c (ix2 (0 : Fin 1) q) = bias m c (ix1 q) := by
  rw [brow_eq]
  exact shapeCast_apply _ shapeCasts_S64_S1x64 (ix2 (0 : Fin 1) q) (ix1 q) (by
    rw [Shape.rowMajor_val_one, Shape.rowMajor_val_two]; show q.val = 0 * 64 + q.val; omega)

/-- The printed index maps over the 10 points: the features' and the output's blocks are at block row t, column 0;
    the weights' and the bias row's blocks never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block is row 10000·t + p of the array. -/
def row (t : Fin cfg0.N) (p : Fin 10000) : Fin 100000 :=
  ⟨t.val * 10000 + p.val, by have ht : t.val < 10 := t.isLt; have hp := p.isLt; omega⟩

/-- WHAT POINT t WRITES BACK is block t of the layer of the whole arrays. -/
theorem flushed_eq (c : Dev nD) (t : Fin cfg0.N) :
    (dats m 0 c).flushed 3 t
      = ((cfg0.win 3).blk t).view.read (Elt Ideal) (Cert.Dense.lin (agg m c) (wts m c) (bias m c)) := by
  rw [Value.flushed3]
  unfold out0_3
  rw [View.canon_unit_zero hz]
  simp only [View.ld_unit_zero (S := S10000x64) hz, View.ld_unit_zero (S := S64x64) hz, View.ld_unit_zero (S := S1x64) hz]
  obtain ⟨e00, e01, e10, e11, e20, e21, e30, e31⟩ := idx_facts t
  funext j
  obtain ⟨p, q, rfl⟩ : ∃ (p : Fin 10000) (q : Fin 64), j = ix2 p q := ⟨j 0, j 1, eq_ix2 j⟩
  have h3 : ((cfg0.win 3).blk t).view.emb (ix2 p q) = ix2 (row t p) q := by
    funext a; apply Fin.ext
    match a with
    | ⟨0, _⟩ => show win0_3.index t (0 : Fin 2) * 10000 + 1 * p.val = t.val * 10000 + p.val; omega
    | ⟨1, _⟩ => show win0_3.index t (1 : Fin 2) * 64 + 1 * q.val = q.val; omega
  have h0 : ∀ k : Fin 64, ((cfg0.win 0).blk t).view.emb (ix2 p k) = ix2 (row t p) k := fun k => by
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have h1 : ∀ k : Fin 64, ((cfg0.win 1).blk t).view.emb (ix2 k q) = ix2 k q := fun k => by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  refine (Block.block_lin (agg m c) (wts m c) (bias m c) (iblk m c 0 t) (iblk m c 1 t) (iblk m c 2 t) (row t p) p q
    (fun k => ?_) (fun k => ?_) ?_).trans ?_
  · unfold iblk
    rw [View.read_apply, h0 k, cast_eq]
  · unfold iblk
    rw [View.read_apply, h1 k, cast_eq]
    exact congrFun (V_main_arg2 m c) (ix2 k q)
  · unfold iblk
    rw [View.read_apply, h2, cast_eq]
    exact brow_apply m c q
  · rw [View.read_apply, cast_eq]
    exact congrArg (Cert.Dense.lin (agg m c) (wts m c) (bias m c)) h3.symm

/-- An index of the output array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v45).slice (win0_3.rect t)).set ↔ _
  rw [View.set_slice_whole, Rect.mem_set_unit]
  exact Iff.rfl

/-- Every index of the output array is in some point's block: row r is in block r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨-, -, -, -, -, -, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE OUTPUT ARRAY after the run is the layer of the aggregated features, the weights and the bias. -/
theorem final (c : Dev nD) : (dats m 0 c).arrAt 3 cfg0.N = Cert.Dense.lin (agg m c) (wts m c) (bias m c) :=
  (dats m 0 c).arrAt_eq_of_cover 3 (Cert.Dense.lin (agg m c) (wts m c) (bias m c)) (fun t _ => flushed_eq m c t) cover

/-- The kernel's run: it terminates with the result array at the layer and the arguments unchanged. -/
theorem run : θ_run defs (onTc (τ := τ) (main (F := Ideal))) ⟨m, fun _ => 0, ρ⟩ fun r => ∀ c : Dev nD,
      r.2.mem ((c : Thread nD τ).loc main_v45) = Cert.Dense.lin (agg m c) (wts m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference's last four operations are the dense layer.

  After the aggregated features are formed, the reference multiplies them by the weights with one `dot_general`
  (contracting the features' columns against the weights' rows), lays the bias along the second axis by two broadcasts,
  and adds. At an index (p, q) that is  Σ_k agg(p, k) · w(k, q) + b(q),  the layer `Cert.Dense.lin` of the aggregated features.
-/
import proofs.«108207_j67808943669323_1_alg».proof.Proof.Gen.ReferenceIdeal.Read
import proofs.«108207_j67808943669323_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The product's left operand is read at (row of the output, contraction index) … -/
theorem lidx_eq (i : S100000x64.Idx) (k : Fin 64) : lidx_main_v44 i k = ix2 (i 0) k :=
  funext fun a => Fin.ext (by match a with | ⟨0, _⟩ => rfl | ⟨1, _⟩ => rfl)

/-- … its right operand at (contraction index, column of the output) … -/
theorem ridx_eq (i : S100000x64.Idx) (k : Fin 64) : ridx_main_v44 i k = ix2 k (i 1) :=
  funext fun a => Fin.ext (by match a with | ⟨0, _⟩ => rfl | ⟨1, _⟩ => rfl)

/-- … and the twice-broadcast bias at the output's column. -/
theorem bidx_eq (i : S100000x64.Idx) : idx_main_v45 (idx_main_v46 i) = ix1 (i 1) :=
  funext fun a => Fin.ext (by match a with | ⟨0, _⟩ => rfl)

/-- The reference's result is the dense layer of its own aggregated features, the weights and the bias. -/
theorem ref_eq_lin (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) :
    val_main_v47 (F := Ideal) x0 x1 x2 x3 = Cert.Dense.lin (val_main_v43 (F := Ideal) x0 x1) x2 x3 := by
  funext i
  rw [val_main_v47_apply, val_main_v44_apply, val_main_v46_apply, val_main_v45_apply]
  simp only [lidx_eq, ridx_eq, bidx_eq]
  rfl

end Cert.ReferenceIdeal.RefValue

end
-- ==== Proof.Bridge.lean ====
/-
  Both programs form the aggregated features by the same host operations.

  Out-degrees and in-degrees are scatter-added counts of the edge list's two rows, each clamped below by one; every edge's
  coefficient is the reciprocal square root of the product of its endpoints' degrees; every edge's message is its source
  row of the features times that coefficient; and the messages are scatter-added by destination. The kernel's program and
  the reference spell these operations identically, with identical dimension numbers, so the array the kernel's grid
  finds is, as a term of the two arguments, the reference's own stage — no arithmetic on it is needed.
-/
import proofs.«108207_j67808943669323_1_alg».proof.Proof.Gen.KernelIdeal.Frame
import proofs.«108207_j67808943669323_1_alg».proof.Proof.Gen.ReferenceIdeal.Read
import Idealize.ShloMosaic.Lib.StableHlo.Run

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)

set_option maxRecDepth 8192 in
/-- The aggregated features the kernel's grid finds are the reference's stage of the same two arguments. -/
theorem agg_eq (c : Dev Cert.KernelIdeal.nD) :
    (Cert.KernelIdeal.Gen.V m c Cert.KernelIdeal.main_v43 : Cert.KernelIdeal.S100000x64.Idx → EReal)
      = Cert.ReferenceIdeal.Read.val_main_v43 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  dsimp only [Cert.KernelIdeal.Gen.V, Cert.KernelIdeal.Gen.hostOps0]
  after_results_simp
  rfl

end Cert.Bridge

end
-- ==== Proof.lean ====
/-
  A graph-convolution layer, out = Â · X · W + b with Â the degree-normalised adjacency given as an edge list, in two programs.

  Both programs form the aggregated features  agg = Â · X  by the same host operations (degree counts by scatter-add,
  clamped below by one; a reciprocal square root per edge; a gather of source rows; a scatter-add by destination).
  They differ only in the dense layer that follows. The reference computes  agg · W + b  with one matrix product over the
  whole 100000 × 64 array. The kernel tiles the rows into ten blocks of 10000, narrows each block and the weights to bf16,
  multiplies into a zero accumulator and adds the bias row. Over the extended reals a change of float format is the
  identity and both products are the finite sum  Σ_k agg(p, k) · W(k, q);  a block's output rows depend only on the
  same rows of agg, and the ten blocks tile the array. So both programs end with
      out(p, q) = Σ_k agg(p, k) · W(k, q) + b(q)
  of the same agg: equal element by element. No cancellation or distribution is used, so finiteness of the inputs is
  never needed. The ideal pass rewrote nothing in the kernel, so the preservation claim is trivially true.
-/
import proofs.«108207_j67808943669323_1_alg».proof.Defs
import proofs.«108207_j67808943669323_1_alg».proof.Proof.Gen.Kernel
import proofs.«108207_j67808943669323_1_alg».proof.Proof.Gen.Kernel.Skeleton
import proofs.«108207_j67808943669323_1_alg».proof.Proof.Gen.Kernel.Launch
import proofs.«108207_j67808943669323_1_alg».proof.Proof.Gen.Kernel.Points
import proofs.«108207_j67808943669323_1_alg».proof.Proof.Gen.Kernel.Frame
import proofs.«108207_j67808943669323_1_alg».proof.Proof.Gen.KernelIdeal
import proofs.«108207_j67808943669323_1_alg».proof.Proof.Gen.KernelIdeal.Skeleton
import proofs.«108207_j67808943669323_1_alg».proof.Proof.Gen.KernelIdeal.Launch
import proofs.«108207_j67808943669323_1_alg».proof.Proof.Gen.KernelIdeal.Points
import proofs.«108207_j67808943669323_1_alg».proof.Proof.Gen.KernelIdeal.Frame
import proofs.«108207_j67808943669323_1_alg».proof.Proof.Gen.ReferenceIdeal
import proofs.«108207_j67808943669323_1_alg».proof.Proof.Gen.Pre_finite_inputs
import proofs.«108207_j67808943669323_1_alg».proof.Proof.Gen.KernelIdeal.Value
import proofs.«108207_j67808943669323_1_alg».proof.Proof.Gen.ReferenceIdeal.Run
import proofs.«108207_j67808943669323_1_alg».proof.Proof.Gen.ReferenceIdeal.Read
import proofs.«108207_j67808943669323_1_alg».proof.Proof.KernelWhole
import proofs.«108207_j67808943669323_1_alg».proof.Proof.RefValue
import proofs.«108207_j67808943669323_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: it runs, and none of them writes an argument. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the dense layer of the aggregated features the kernel's grid finds: the
    kernel by its ten row blocks, the reference by its whole product, whose own aggregated features are the same term. -/
theorem algebraic : Cert.algebraic_KernelIdeal_ReferenceIdeal := by
  intro m ρ m' ρ' _ hagree
  refine ⟨fun c => Cert.Dense.lin (Cert.KernelIdeal.Whole.agg m c) (Cert.KernelIdeal.Whole.wts m c) (Cert.KernelIdeal.Whole.bias m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.ref_eq_lin,
    (hagree c).1, (hagree c).2.1, (hagree c).2.2.1, (hagree c).2.2.2]
  exact congrArg (fun a => Cert.Dense.lin a (Cert.KernelIdeal.Whole.wts m c) (Cert.KernelIdeal.Whole.bias m c))
    (Cert.Bridge.agg_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
